-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x48 : Shape := ⟨2, ![128, 48]⟩
abbrev S48x40 : Shape := ⟨2, ![48, 40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x48 : S_.BroadcastsInDim S128x48 (![] : Fin 0 → Fin S128x48.rank)
  reducesTo_S128x48_S_d0_1 : S128x48.ReducesTo [0, 1] S_
  bcast_S_S48x40 : S_.BroadcastsInDim S48x40 (![] : Fin 0 → Fin S48x40.rank)
  reducesTo_S48x40_S_d0_1 : S48x40.ReducesTo [0, 1] S_

variable [Facts]

def fn_part1 {F : FTy → Type} [FloatOps F] (main_v13 : IVec S_ 1) (main_v16 : IVec S48x40 1) : IVec S_ 1 :=
  let main_c_5 : IVec S_ 1 := constantI S_ 1 1#1
  let main_v17 : IVec S_ 1 := (fun x v => Host.reduce IntOp.andi x v reducesTo_S48x40_S_d0_1 h_S_) main_v16 main_c_5
  let main_v18 : IVec S_ 1 := andi main_v13 main_v17
  main_v18

def fn {F : FTy → Type} [FloatOps F] (main_arg0 : FVec F S100000x128 .f32) (main_arg1 : IVec S1600000 32) (main_arg2 : IVec S1600000 32) (main_arg3 : FVec F S1600000 .f32) (main_arg4 : FVec F S128x48 .f32) (main_arg5 : FVec F S48x40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x48 .f32 := Host.absf main_arg4
  let main_cst_2 : FVec F S_ .f32 := constant S_ .f32 0x7F800000#32
  let main_v10 : FVec F S128x48 .f32 := broadcastInDim S128x48 ![] bcast_S_S128x48 main_cst_2
  let main_v11 : IVec S128x48 1 := cmpf .olt main_v9 main_v10
  let main_c_3 : IVec S_ 1 := constantI S_ 1 1#1
  let main_v12 : IVec S_ 1 := (fun x v => Host.reduce IntOp.andi x v reducesTo_S128x48_S_d0_1 h_S_) main_v11 main_c_3
  let main_v13 : IVec S_ 1 := andi main_v8 main_v12
  let main_v14 : FVec F S48x40 .f32 := Host.absf main_arg5
  let main_cst_4 : FVec F S_ .f32 := constant S_ .f32 0x7F800000#32
  let main_v15 : FVec F S48x40 .f32 := broadcastInDim S48x40 ![] bcast_S_S48x40 main_cst_4
  let main_v16 : IVec S48x40 1 := cmpf .olt main_v14 main_v15
  fn_part1 (F := F) main_v13 main_v16
-- ==== Kernel.lean ====
abbrev S100000x128 : Shape := ⟨2, ![100000, 128]⟩
abbrev S1600000 : Shape := ⟨1, ![1600000]⟩
abbrev S128x48 : Shape := ⟨2, ![128, 48]⟩
abbrev S48x40 : Shape := ⟨2, ![48, 40]⟩
abbrev S100000x48 : Shape := ⟨2, ![100000, 48]⟩
abbrev S2000x128 : Shape := ⟨2, ![2000, 128]⟩
abbrev S2000x48 : Shape := ⟨2, ![2000, 48]⟩
abbrev S_ : Shape := ⟨0, ![]⟩
abbrev S1600000x1 : Shape := ⟨2, ![1600000, 1]⟩
abbrev S1600000x48 : Shape := ⟨2, ![1600000, 48]⟩
abbrev S100000x40 : Shape := ⟨2, ![100000, 40]⟩
abbrev S2000x40 : Shape := ⟨2, ![2000, 40]⟩
abbrev S1600000x40 : Shape := ⟨2, ![1600000, 40]⟩

abbrev nBuf : Space → Nat
  | .hbm => 40
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x48, .f32⟩
  | .hbm, ⟨5, _⟩ => ⟨S48x40, .f32⟩
  | .hbm, ⟨6, _⟩ => ⟨S100000x48, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x48, .f32⟩
  | .hbm, ⟨16, _⟩ => ⟨S1600000x1, .f32⟩
  | .hbm, ⟨17, _⟩ => ⟨S1600000x48, .f32⟩
  | .hbm, ⟨18, _⟩ => ⟨S1600000x48, .f32⟩
  | .hbm, ⟨19, _⟩ => ⟨S_, .f32⟩
  | .hbm, ⟨20, _⟩ => ⟨S100000x48, .f32⟩
  | .hbm, ⟨21, _⟩ => ⟨S1600000x1, .i32⟩
  | .hbm, ⟨22, _⟩ => ⟨S100000x48, .f32⟩
  | .hbm, ⟨23, _⟩ => ⟨S100000x40, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x40, .f32⟩
  | .hbm, ⟨33, _⟩ => ⟨S1600000x1, .f32⟩
  | .hbm, ⟨34, _⟩ => ⟨S1600000x40, .f32⟩
  | .hbm, ⟨35, _⟩ => ⟨S1600000x40, .f32⟩
  | .hbm, ⟨36, _⟩ => ⟨S_, .f32⟩
  | .hbm, ⟨37, _⟩ => ⟨S100000x40, .f32⟩
  | .hbm, ⟨38, _⟩ => ⟨S1600000x1, .i32⟩
  | .hbm, ⟨39, _⟩ => ⟨S100000x40, .f32⟩
  | .local _ .vmem, ⟨0, _⟩ => ⟨S2000x128, .f32⟩
  | .local _ .vmem, ⟨1, _⟩ => ⟨S2000x128, .f32⟩
  | .local _ .vmem, ⟨2, _⟩ => ⟨S128x48, .f32⟩
  | .local _ .vmem, ⟨3, _⟩ => ⟨S2000x48, .f32⟩
  | .local _ .vmem, ⟨4, _⟩ => ⟨S2000x48, .f32⟩
  | .local _ .vmem, ⟨5, _⟩ => ⟨S2000x48, .f32⟩
  | .local _ .vmem, ⟨6, _⟩ => ⟨S2000x48, .f32⟩
  | .local _ .vmem, ⟨7, _⟩ => ⟨S48x40, .f32⟩
  | .local _ .vmem, ⟨8, _⟩ => ⟨S2000x40, .f32⟩
  | .local _ .vmem, ⟨9, _⟩ => ⟨S2000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x48 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x48 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S48x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x40 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x48_S128x48_0_0 : ∀ a, (![0, 0] : Fin 2 → Nat) a + S128x48.size a ≤ S128x48.size a
  h_S128x48 : 0 < S128x48.numel
  inb_S2000x48_S2000x48_0_0 : ∀ a, (![0, 0] : Fin 2 → Nat) a + S2000x48.size a ≤ S2000x48.size a
  h_S2000x48 : 0 < S2000x48.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x48_0_1 : S1600000x1.BroadcastsInDim S1600000x48 (![0, 1] : Fin 2 → Fin S1600000x48.rank)
  bcast_S_S100000x48 : S_.BroadcastsInDim S100000x48 (![] : Fin 0 → Fin S100000x48.rank)
  shapeCasts_S2000x48_S2000x48 : S2000x48.ShapeCasts S2000x48
  inb_S48x40_S48x40_0_0 : ∀ a, (![0, 0] : Fin 2 → Nat) a + S48x40.size a ≤ S48x40.size a
  h_S48x40 : 0 < S48x40.numel
  inb_S2000x40_S2000x40_0_0 : ∀ a, (![0, 0] : Fin 2 → Nat) a + S2000x40.size a ≤ S2000x40.size a
  h_S2000x40 : 0 < S2000x40.numel
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  dot_S2000x128_S128x48_S2000x48_1_0_0_1_n_n_wf : DotDims.WF S2000x128 S128x48 S2000x48 [1] [0] [0] [1] [] []
  gather_S100000x48_S1600000x1_S1600000x48_1_0_n_n_0_1_148_wf : GatherDims.WF S100000x48 S1600000x1 S1600000x48 [1] [0] [] [0] [] 1 ![1, 48]
  scatter_S100000x48_S1600000x1_S1600000x48_1_0_0_1_wf : ScatterDims.WF S100000x48 S1600000x1 S1600000x48 [1] [0] [0] 1
  dot_S2000x48_S48x40_S2000x40_1_0_0_1_n_n_wf : DotDims.WF S2000x48 S48x40 S2000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x48.size a ≤ S128x48.size a
  hwx0_1 : ∀ i : grid0.Coords, EltTy.bits .f32 = 32 ∨ (Rect.block (s := S128x48) S128x48.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x48.size a ≤ S100000x48.size a
  hwx0_2 : ∀ i : grid0.Coords, EltTy.bits .f32 = 32 ∨ (Rect.block (s := S100000x48) S2000x48.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x48.size a ≤ S100000x48.size a
  hwx1_0 : ∀ i : grid1.Coords, EltTy.bits .f32 = 32 ∨ (Rect.block (s := S100000x48) S2000x48.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S48x40.size a ≤ S48x40.size a
  hwx1_1 : ∀ i : grid1.Coords, EltTy.bits .f32 = 32 ∨ (Rect.block (s := S48x40) S48x40.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x40.size a ≤ S100000x40.size a
  hwx1_2 : ∀ i : grid1.Coords, EltTy.bits .f32 = 32 ∨ (Rect.block (s := S100000x40) S2000x40.size (cc1_transform_2 i) (hinb1_2 i)).WholeWords (EltTy.packing .f32)

variable [Facts₀]

def dot_S2000x128_S128x48_S2000x48_1_0_0_1_n_n : DotDims S2000x128 S128x48 S2000x48 where
  lhsContracting := [1]
  rhsContracting := [0]
  lhsNonContracting := [0]
  rhsNonContracting := [1]
  lhsBatch := []
  rhsBatch := []
  wf := dot_S2000x128_S128x48_S2000x48_1_0_0_1_n_n_wf
def gather_S100000x48_S1600000x1_S1600000x48_1_0_n_n_0_1_148 : GatherDims S100000x48 S1600000x1 S1600000x48 where
  offsetDims := [1]
  collapsedSliceDims := [0]
  operandBatchingDims := []
  startIndicesBatchingDims := []
  startIndexMap := [0]
  indexVectorDim := 1
  sliceSizes := ![1, 48]
  wf := gather_S100000x48_S1600000x1_S1600000x48_1_0_n_n_0_1_148_wf
def scatter_S100000x48_S1600000x1_S1600000x48_1_0_0_1 : ScatterDims S100000x48 S1600000x1 S1600000x48 where
  updateWindowDims := [1]
  insertedWindowDims := [0]
  scatterDimsToOperandDims := [0]
  indexVectorDim := 1
  wf := scatter_S100000x48_S1600000x1_S1600000x48_1_0_0_1_wf
def dot_S2000x48_S48x40_S2000x40_1_0_0_1_n_n : DotDims S2000x48 S48x40 S2000x40 where
  lhsContracting := [1]
  rhsContracting := [0]
  lhsNonContracting := [0]
  rhsNonContracting := [1]
  lhsBatch := []
  rhsBatch := []
  wf := dot_S2000x48_S48x40_S2000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x48.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x48.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S2000x48.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S48x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S2000x40.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x48 : Shape := ⟨2, ![128, 48]⟩
abbrev S48x40 : Shape := ⟨2, ![48, 40]⟩
abbrev S100000x48 : Shape := ⟨2, ![100000, 48]⟩
abbrev S_ : Shape := ⟨0, ![]⟩
abbrev S1600000x1 : Shape := ⟨2, ![1600000, 1]⟩
abbrev S1600000x48 : Shape := ⟨2, ![1600000, 48]⟩
abbrev S100000x40 : Shape := ⟨2, ![100000, 40]⟩
abbrev S1600000x40 : Shape := ⟨2, ![1600000, 40]⟩

abbrev nBuf : Space → Nat
  | .hbm => 43
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x48, .f32⟩
  | .hbm, ⟨5, _⟩ => ⟨S48x40, .f32⟩
  | .hbm, ⟨6, _⟩ => ⟨S100000x48, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x48, .f32⟩
  | .hbm, ⟨16, _⟩ => ⟨S1600000x1, .f32⟩
  | .hbm, ⟨17, _⟩ => ⟨S1600000x48, .f32⟩
  | .hbm, ⟨18, _⟩ => ⟨S1600000x48, .f32⟩
  | .hbm, ⟨19, _⟩ => ⟨S_, .f32⟩
  | .hbm, ⟨20, _⟩ => ⟨S100000x48, .f32⟩
  | .hbm, ⟨21, _⟩ => ⟨S1600000x1, .i32⟩
  | .hbm, ⟨22, _⟩ => ⟨S100000x48, .f32⟩
  | .hbm, ⟨23, _⟩ => ⟨S_, .f32⟩
  | .hbm, ⟨24, _⟩ => ⟨S100000x48, .f32⟩
  | .hbm, ⟨25, _⟩ => ⟨S100000x48, .f32⟩
  | .hbm, ⟨26, _⟩ => ⟨S100000x40, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x40, .f32⟩
  | .hbm, ⟨36, _⟩ => ⟨S1600000x1, .f32⟩
  | .hbm, ⟨37, _⟩ => ⟨S1600000x40, .f32⟩
  | .hbm, ⟨38, _⟩ => ⟨S1600000x40, .f32⟩
  | .hbm, ⟨39, _⟩ => ⟨S_, .f32⟩
  | .hbm, ⟨40, _⟩ => ⟨S100000x40, .f32⟩
  | .hbm, ⟨41, _⟩ => ⟨S1600000x1, .i32⟩
  | .hbm, ⟨42, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_cst : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x48_0_1 : S1600000x1.BroadcastsInDim S1600000x48 (![0, 1] : Fin 2 → Fin S1600000x48.rank)
  bcast_S_S100000x48 : S_.BroadcastsInDim S100000x48 (![] : Fin 0 → Fin S100000x48.rank)
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  dot_S100000x128_S128x48_S100000x48_1_0_0_1_n_n_wf : DotDims.WF S100000x128 S128x48 S100000x48 [1] [0] [0] [1] [] []
  gather_S100000x48_S1600000x1_S1600000x48_1_0_n_n_0_1_148_wf : GatherDims.WF S100000x48 S1600000x1 S1600000x48 [1] [0] [] [0] [] 1 ![1, 48]
  scatter_S100000x48_S1600000x1_S1600000x48_1_0_0_1_wf : ScatterDims.WF S100000x48 S1600000x1 S1600000x48 [1] [0] [0] 1
  dot_S100000x48_S48x40_S100000x40_1_0_0_1_n_n_wf : DotDims.WF S100000x48 S48x40 S100000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1

variable [Facts₀]

def dot_S100000x128_S128x48_S100000x48_1_0_0_1_n_n : DotDims S100000x128 S128x48 S100000x48 where
  lhsContracting := [1]
  rhsContracting := [0]
  lhsNonContracting := [0]
  rhsNonContracting := [1]
  lhsBatch := []
  rhsBatch := []
  wf := dot_S100000x128_S128x48_S100000x48_1_0_0_1_n_n_wf
def gather_S100000x48_S1600000x1_S1600000x48_1_0_n_n_0_1_148 : GatherDims S100000x48 S1600000x1 S1600000x48 where
  offsetDims := [1]
  collapsedSliceDims := [0]
  operandBatchingDims := []
  startIndicesBatchingDims := []
  startIndexMap := [0]
  indexVectorDim := 1
  sliceSizes := ![1, 48]
  wf := gather_S100000x48_S1600000x1_S1600000x48_1_0_n_n_0_1_148_wf
def scatter_S100000x48_S1600000x1_S1600000x48_1_0_0_1 : ScatterDims S100000x48 S1600000x1 S1600000x48 where
  updateWindowDims := [1]
  insertedWindowDims := [0]
  scatterDimsToOperandDims := [0]
  indexVectorDim := 1
  wf := scatter_S100000x48_S1600000x1_S1600000x48_1_0_0_1_wf
def dot_S100000x48_S48x40_S100000x40_1_0_0_1_n_n : DotDims S100000x48 S48x40 S100000x40 where
  lhsContracting := [1]
  rhsContracting := [0]
  lhsNonContracting := [0]
  rhsNonContracting := [1]
  lhsBatch := []
  rhsBatch := []
  wf := dot_S100000x48_S48x40_S100000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

class Facts : Prop extends Facts₀ where

variable [Facts]
-- ==== Proof.LibDot2.lean ====
/-
  A matrix product at the ideal instance, read at an entry.

  For two rank-2 operands of shapes [M, K] and [K, N] whose dimension numbers contract the left operand's second
  axis with the right operand's first, the product into a zero accumulator is, at row `p` and column `j`, the
  plain sum over `a : Fin K` of `l (p, a) * r (a, j)` on the extended reals. The dimension numbers enter only
  through four coordinate facts (which coordinate of each operand is the output's and which is the contracted
  one); a caller proves those four for its own record and gets the sum.
-/
import Idealize.ShloMosaic.Lib.ValueIdx
import Idealize.ShloMosaic.PureOps.Ideal.Laws

noncomputable section

namespace Cert.Lib.Dot2

open Idealize.ShloMosaic Idealize.ShloMosaic.ValueIdx

/-- The contraction sum of a rank-2 by rank-2 product, re-indexed from the record's one-axis contraction index to
    `Fin K`: the left operand is read along row `p`, the right along column `j`. -/
theorem contraction_ix2 {M K N : Nat} (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : (⟨2, ![M, K]⟩ : Shape).Idx → EReal) (r : (⟨2, ![K, N]⟩ : Shape).Idx → EReal) (p : Fin M) (j : Fin N) :
    ∑ k : D.contr.Idx, l (D.lhsIdx (ix2 p j) k) * r (D.rhsIdx (ix2 p j) k) = ∑ a : Fin K, l (ix2 p a) * r (ix2 a j) := by
  rw [← Equiv.sum_comp (contrEquiv1 D K hr hs).symm]
  refine Finset.sum_congr rfl fun a _ => ?_
  have hk := contrEquiv1_symm_val D K hr hs a
  have el : D.lhsIdx (ix2 p j) ((contrEquiv1 D K hr hs).symm a) = ix2 p a := funext fun d => Fin.ext (by
    match d with
    | ⟨0, _⟩ => exact hl0 _ _
    | ⟨1, _⟩ => exact (hl1 _ _).trans hk)
  have er : D.rhsIdx (ix2 p j) ((contrEquiv1 D K hr hs).symm a) = ix2 a j := funext fun d => Fin.ext (by
    match d with
    | ⟨0, _⟩ => exact (hr0 _ _).trans hk
    | ⟨1, _⟩ => exact hr1 _ _)
  rw [el, er]

/-- A kernel's matrix product into the zero accumulator, at the ideal instance, read at `(p, j)`. -/
theorem matmul_zero_ix2 {M K N : Nat} {φ₁ φ₂ : FTy} (D : DotDims ⟨2, ![M, K]⟩ ⟨2, ![K, N]⟩ ⟨2, ![M, N]⟩)
    (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : FVec Ideal ⟨2, ![M, K]⟩ φ₁) (r : FVec Ideal ⟨2, ![K, N]⟩ φ₂) (p : Fin M) (j : Fin N) :
    matmul D prec l r (constant (F := Ideal) ⟨2, ![M, N]⟩ .f32 0x00000000#32) (ix2 p j)
      = ∑ a : Fin K, l (ix2 p a) * r (ix2 a j) := by
  show FloatOps.matmul D prec l r (constant (F := Ideal) ⟨2, ![M, N]⟩ .f32 0x00000000#32) (ix2 p j) = _
  rw [Ideal.matmul_constant_zero_apply]
  exact contraction_ix2 D hr hs hl0 hl1 hr0 hr1 l r p j

end Cert.Lib.Dot2

end
-- ==== Proof.Spec.lean ====
/-
  The two dense stages of the layer as whole-array functions on the extended reals.

  `prod l r` is the matrix product: entry (p, j) is the sum over a of l (p, a) * r (a, j). `relu x` is the
  entrywise maximum with the zero word's value. A host `dot_general` of two rank-2 operands that contracts the
  left operand's second axis with the right operand's first is `prod`, entry by entry; the record's dimension
  numbers enter through the same four coordinate facts the kernel-side product lemma takes.
-/
import proofs.«174527_j86844238725530_1_alg».proof.Proof.LibDot2
import Idealize.ShloMosaic.Lib.ValueIdx
import Idealize.ShloMosaic.PureOps.Ideal.Laws

noncomputable section

namespace Cert.Spec

open Idealize.ShloMosaic Idealize.ShloMosaic.ValueIdx

/-- The left operand's index on the row of output index `i`, at contraction position `a`. -/
abbrev leftAt {M K N : Nat} (i : (⟨2, ![M, N]⟩ : Shape).Idx) (a : Fin K) : (⟨2, ![M, K]⟩ : Shape).Idx :=
  ix2 (⟨(i 0).val, idx2_lt0 i⟩ : Fin M) a

/-- The right operand's index on the column of output index `i`, at contraction position `a`. -/
abbrev rightAt {M K N : Nat} (i : (⟨2, ![M, N]⟩ : Shape).Idx) (a : Fin K) : (⟨2, ![K, N]⟩ : Shape).Idx :=
  ix2 a (⟨(i 1).val, idx2_lt1 i⟩ : Fin N)

/-- The matrix product of an [M, K] array with a [K, N] array, as one function of the output index. -/
def prod {M K N : Nat} (l : (⟨2, ![M, K]⟩ : Shape).Idx → EReal) (r : (⟨2, ![K, N]⟩ : Shape).Idx → EReal) :
    (⟨2, ![M, N]⟩ : Shape).Idx → EReal :=
  fun i => ∑ a : Fin K, l (leftAt i a) * r (rightAt i a)

/-- At the entry (p, j) the product is the sum over a of l (p, a) * r (a, j). -/
theorem prod_ix2 {M K N : Nat} (l : (⟨2, ![M, K]⟩ : Shape).Idx → EReal) (r : (⟨2, ![K, N]⟩ : Shape).Idx → EReal)
    (p : Fin M) (j : Fin N) : prod l r (ix2 p j) = ∑ a : Fin K, l (ix2 p a) * r (ix2 a j) := rfl

/-- The entrywise maximum with the value of the zero word. -/
def relu {S : Shape} (x : S.Idx → EReal) : S.Idx → EReal :=
  fun i => max (x i) (Ideal.ofBits .f32 0x00000000#32)

/-- The host's product of two rank-2 operands, read at the entry (p, j). -/
theorem hostDot_ix2 {M K N : Nat} {φ₁ φ₂ : FTy} (D : DotDims ⟨2, ![M, K]⟩ ⟨2, ![K, N]⟩ ⟨2, ![M, N]⟩)
    (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : FVec Ideal ⟨2, ![M, K]⟩ φ₁) (r : FVec Ideal ⟨2, ![K, N]⟩ φ₂) (p : Fin M) (j : Fin N) :
    Host.dotGeneral D prec l r (ix2 p j) = ∑ a : Fin K, l (ix2 p a) * r (ix2 a j) := by
  simp only [Host.dotGeneral]
  rw [Ideal.dotGeneral_apply]
  exact Cert.Lib.Dot2.contraction_ix2 D hr hs hl0 hl1 hr0 hr1 l r p j

/-- The host's product of two rank-2 operands is the matrix product. -/
theorem hostDot_eq_prod {M K N : Nat} {φ₁ φ₂ : FTy} (D : DotDims ⟨2, ![M, K]⟩ ⟨2, ![K, N]⟩ ⟨2, ![M, N]⟩)
    (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : FVec Ideal ⟨2, ![M, K]⟩ φ₁) (r : FVec Ideal ⟨2, ![K, N]⟩ φ₂) :
    Host.dotGeneral D prec l r = prod l r := by
  funext i
  obtain ⟨p, j, rfl⟩ : ∃ (p : Fin M) (j : Fin N), i = ix2 p j := ⟨i 0, i 1, eq_ix2 i⟩
  exact hostDot_ix2 D prec hr hs hl0 hl1 hr0 hr1 l r p j

end Cert.Spec

end
-- ==== Proof.KPay.lean ====
/-
  What each kernel body stores, read at an entry of its block.

  The first body stores the product of its row block of the features with the whole first weight matrix: entry
  (p, j) is the sum over a of x (p, a) * w (a, j) (the two narrowing casts are the identity on the extended reals,
  and the accumulator is zero). The second body stores the same product of the entrywise maximum of its row block
  with zero and the second weight matrix.
-/
import proofs.«174527_j86844238725530_1_alg».proof.Proof.Gen.KernelIdeal.Skeleton
import proofs.«174527_j86844238725530_1_alg».proof.Proof.LibDot2
import proofs.«174527_j86844238725530_1_alg».proof.Proof.Spec
import Idealize.ShloMosaic.Lib.Pipeline.Value
import Idealize.ShloMosaic.Lib.ValueIdx
import Idealize.ShloMosaic.PureOps.Ideal.Laws

noncomputable section

namespace Cert.KernelIdeal.Pay

open Cert.KernelIdeal Idealize.ShloMosaic Idealize.ShloMosaic.ValueIdx

/-! ## Which coordinate of each operand is the output's and which the contracted one -/

theorem lhsA_0 (i : S2000x48.Idx) (q : dot_S2000x128_S128x48_S2000x48_1_0_0_1_n_n.contr.Idx) :
    (dot_S2000x128_S128x48_S2000x48_1_0_0_1_n_n.lhsIdx i q 0).val = (i 0).val := by
  unfold DotDims.lhsIdx
  rw [dif_neg (show ¬(0 : Fin S2000x128.rank) ∈ dot_S2000x128_S128x48_S2000x48_1_0_0_1_n_n.lhsBatch by decide), dif_pos (show (0 : Fin S2000x128.rank) ∈ dot_S2000x128_S128x48_S2000x48_1_0_0_1_n_n.lhsNonContracting by decide)]
  rfl
theorem lhsA_1 (i : S2000x48.Idx) (q : dot_S2000x128_S128x48_S2000x48_1_0_0_1_n_n.contr.Idx) :
    (dot_S2000x128_S128x48_S2000x48_1_0_0_1_n_n.lhsIdx i q 1).val = (q ⟨0, by decide⟩).val :=
  dot_S2000x128_S128x48_S2000x48_1_0_0_1_n_n.lhsIdx_val_of_single rfl i q
theorem rhsA_0 (i : S2000x48.Idx) (q : dot_S2000x128_S128x48_S2000x48_1_0_0_1_n_n.contr.Idx) :
    (dot_S2000x128_S128x48_S2000x48_1_0_0_1_n_n.rhsIdx i q 0).val = (q ⟨0, by decide⟩).val :=
  dot_S2000x128_S128x48_S2000x48_1_0_0_1_n_n.rhsIdx_val_of_single rfl i q
theorem rhsA_1 (i : S2000x48.Idx) (q : dot_S2000x128_S128x48_S2000x48_1_0_0_1_n_n.contr.Idx) :
    (dot_S2000x128_S128x48_S2000x48_1_0_0_1_n_n.rhsIdx i q 1).val = (i 1).val := by
  unfold DotDims.rhsIdx
  rw [dif_neg (show ¬(1 : Fin S128x48.rank) ∈ dot_S2000x128_S128x48_S2000x48_1_0_0_1_n_n.rhsBatch by decide), dif_pos (show (1 : Fin S128x48.rank) ∈ dot_S2000x128_S128x48_S2000x48_1_0_0_1_n_n.rhsNonContracting by decide)]
  rfl

theorem lhsB_0 (i : S2000x40.Idx) (q : dot_S2000x48_S48x40_S2000x40_1_0_0_1_n_n.contr.Idx) :
    (dot_S2000x48_S48x40_S2000x40_1_0_0_1_n_n.lhsIdx i q 0).val = (i 0).val := by
  unfold DotDims.lhsIdx
  rw [dif_neg (show ¬(0 : Fin S2000x48.rank) ∈ dot_S2000x48_S48x40_S2000x40_1_0_0_1_n_n.lhsBatch by decide), dif_pos (show (0 : Fin S2000x48.rank) ∈ dot_S2000x48_S48x40_S2000x40_1_0_0_1_n_n.lhsNonContracting by decide)]
  rfl
theorem lhsB_1 (i : S2000x40.Idx) (q : dot_S2000x48_S48x40_S2000x40_1_0_0_1_n_n.contr.Idx) :
    (dot_S2000x48_S48x40_S2000x40_1_0_0_1_n_n.lhsIdx i q 1).val = (q ⟨0, by decide⟩).val :=
  dot_S2000x48_S48x40_S2000x40_1_0_0_1_n_n.lhsIdx_val_of_single rfl i q
theorem rhsB_0 (i : S2000x40.Idx) (q : dot_S2000x48_S48x40_S2000x40_1_0_0_1_n_n.contr.Idx) :
    (dot_S2000x48_S48x40_S2000x40_1_0_0_1_n_n.rhsIdx i q 0).val = (q ⟨0, by decide⟩).val :=
  dot_S2000x48_S48x40_S2000x40_1_0_0_1_n_n.rhsIdx_val_of_single rfl i q
theorem rhsB_1 (i : S2000x40.Idx) (q : dot_S2000x48_S48x40_S2000x40_1_0_0_1_n_n.contr.Idx) :
    (dot_S2000x48_S48x40_S2000x40_1_0_0_1_n_n.rhsIdx i q 1).val = (i 1).val := by
  unfold DotDims.rhsIdx
  rw [dif_neg (show ¬(1 : Fin S48x40.rank) ∈ dot_S2000x48_S48x40_S2000x40_1_0_0_1_n_n.rhsBatch by decide), dif_pos (show (1 : Fin S48x40.rank) ∈ dot_S2000x48_S48x40_S2000x40_1_0_0_1_n_n.rhsNonContracting by decide)]
  rfl

/-! ## The stored values -/

/-- The first body's stored block at (p, j): row p of its features block against column j of the first weights. -/
theorem first_ix2 (x : Vec Ideal S2000x128 .f32) (w : Vec Ideal S128x48 .f32) (p : Fin 2000) (j : Fin 48) :
    Gen.k0_pay1 x w (ix2 p j) = ∑ a : Fin 128, x (ix2 p a) * w (ix2 a j) := by
  unfold Gen.k0_pay1
  exact Cert.Lib.Dot2.matmul_zero_ix2 dot_S2000x128_S128x48_S2000x48_1_0_0_1_n_n none rfl rfl lhsA_0 lhsA_1 rhsA_0 rhsA_1 _ _ p j

/-- The second body's stored block at (p, j): row p of the rectified block against column j of the second weights. -/
theorem second_ix2 (x : Vec Ideal S2000x48 .f32) (w : Vec Ideal S48x40 .f32) (p : Fin 2000) (j : Fin 40) :
    Gen.k1_pay1 x w (ix2 p j) = ∑ a : Fin 48, Cert.Spec.relu x (ix2 p a) * w (ix2 a j) := by
  unfold Gen.k1_pay1
  refine (Cert.Lib.Dot2.matmul_zero_ix2 dot_S2000x48_S48x40_S2000x40_1_0_0_1_n_n none rfl rfl lhsB_0 lhsB_1 rhsB_0 rhsB_1 _ _ p j).trans ?_
  refine Finset.sum_congr rfl fun a _ => ?_
  rw [shapeCast_self]
  rfl

end Cert.KernelIdeal.Pay

end
-- ==== Proof.First.lean ====
/-
  The first region: the features times the first weight matrix, row block by row block.

  The grid has fifty points; point t works on rows 2000 t to 2000 t + 1999. Its left block is those rows of the
  left array, its right block the whole right array, and what it writes back is the block of the same rows of
  the output. Since entry (p, j) of the stored block depends only on row p of the left block, the stored block is
  the block of one whole-array function: the product of the whole features array with the first weight matrix. The fifty row blocks tile the output's 100000 rows, so after
  the last point the output array is that function everywhere.
-/
import proofs.«174527_j86844238725530_1_alg».proof.Proof.Gen.KernelIdeal.Frame
import proofs.«174527_j86844238725530_1_alg».proof.Proof.KPay
import proofs.«174527_j86844238725530_1_alg».proof.Proof.Spec
import Idealize.ShloMosaic.Lib.Pipeline.Value
import Idealize.ShloMosaic.Lib.ValueIdx

set_option maxRecDepth 16384

noncomputable section

namespace Cert.KernelIdeal.First

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- Every access of the body starts at the origin of its buffer. -/
theorem origin : (![0, 0] : Fin 2 → Nat) = fun _ => 0 := funext fun a => by fin_cases a <;> rfl

/-- The block indices over the grid: the left and the output windows are on row block t, column block 0; the right
    window stays on its one block. -/
theorem blockIdx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left array as the region finds it, at its literal type. -/
abbrev larr (c : Dev nD) : S100000x128.Idx → EReal := V c main_arg0
/-- The right array as the region finds it, at its literal type. -/
abbrev rarr (c : Dev nD) : S128x48.Idx → EReal := V c main_arg4

/-- The left operand of the product: the left array as it is. -/
abbrev lop (c : Dev nD) : S100000x128.Idx → EReal := larr V c

/-- The output array as one function of the two arrays the region reads. -/
abbrev whole (c : Dev nD) : S100000x48.Idx → EReal :=
  Cert.Spec.prod (M := 100000) (K := 128) (N := 48) (lop V c) (rarr V c)

/-- What point t writes back is its row block of `whole`. -/
theorem flushed_eq (c : Dev nD) (t : Fin cfg0.N) :
    (dat0 V c).flushed 2 t = ((cfg0.win 2).blk t).view.read (Elt Ideal) (whole V c) := by
  show (cfg0.win 2).cut (grid0.coords t) ((dat0 V c).after 2 t) = _
  rw [after0_2]
  unfold out0_2
  rw [View.canon_unit_zero origin]
  simp only [View.ld_unit_zero (S := S2000x128) origin, View.ld_unit_zero (S := S128x48) origin]
  obtain ⟨e00, e01, e10, e11, e20, e21⟩ := blockIdx t
  funext y
  obtain ⟨p, q, rfl⟩ : ∃ (p : Fin 2000) (q : Fin 48), y = ix2 p q := ⟨y 0, y 1, eq_ix2 y⟩
  refine (Cert.KernelIdeal.Pay.first_ix2 (iblk0 V c 0 t) (iblk0 V c 1 t) p q).trans ?_
  show _ = ∑ a : Fin 128, lop V c (Cert.Spec.leftAt (M := 100000) (K := 128) (N := 48) (((cfg0.win 2).blk t).view.emb (ix2 p q)) a)
      * rarr V c (Cert.Spec.rightAt (M := 100000) (K := 128) (N := 48) (((cfg0.win 2).blk t).view.emb (ix2 p q)) a)
  refine Finset.sum_congr rfl fun a _ => ?_
  have hl : ((cfg0.win 0).blk t).view.emb (ix2 p a)
      = Cert.Spec.leftAt (M := 100000) (K := 128) (N := 48) (((cfg0.win 2).blk t).view.emb (ix2 p q)) a := by
    funext d; apply Fin.ext
    match d with
    | ⟨0, _⟩ => show win0_0.index t (0 : Fin 2) * 2000 + 1 * p.val = win0_2.index t (0 : Fin 2) * 2000 + 1 * p.val; omega
    | ⟨1, _⟩ => show win0_0.index t (1 : Fin 2) * 128 + 1 * a.val = a.val; omega
  have hr : ((cfg0.win 1).blk t).view.emb (ix2 a q)
      = Cert.Spec.rightAt (M := 100000) (K := 128) (N := 48) (((cfg0.win 2).blk t).view.emb (ix2 p q)) a := by
    funext d; apply Fin.ext
    match d with
    | ⟨0, _⟩ => show win0_1.index t (0 : Fin 2) * 128 + 1 * a.val = a.val; omega
    | ⟨1, _⟩ => show win0_1.index t (1 : Fin 2) * 48 + 1 * q.val = win0_2.index t (1 : Fin 2) * 48 + 1 * q.val; omega
  show lop V c (((cfg0.win 0).blk t).view.emb (ix2 p a)) * rarr V c (((cfg0.win 1).blk t).view.emb (ix2 a q)) = _
  rw [hl, hr]

/-- An index of the output array lies in point t's block when each coordinate lies in the block's range. -/
theorem mem_block (t : Fin cfg0.N) (i : S100000x48.Idx) :
    i ∈ ((cfg0.win 2).blk t).view.set ↔ ∀ a : Fin 2, win0_2.index t a * S2000x48.size a ≤ (i a).val ∧ (i a).val < win0_2.index t a * S2000x48.size a + S2000x48.size a := by
  show i ∈ ((View.whole main_v0).slice (win0_2.rect t)).set ↔ _
  rw [View.set_slice_whole, Rect.mem_set_unit]
  exact Iff.rfl

/-- Row r of the output lies in the block of point r / 2000. -/
theorem covered (i : S100000x48.Idx) :
    ∃ t : Fin cfg0.N, (cfg0.win 2).flush t = true ∧ i ∈ ((cfg0.win 2).blk t).view.set := by
  have hi0 : (i 0).val < 100000 := (i 0).isLt
  have hi1 : (i 1).val < 48 := (i 1).isLt
  have hN : cfg0.N = 50 := N_0
  have ht : (i 0).val / 2000 < cfg0.N := by rw [hN]; omega
  obtain ⟨-, -, -, -, e20, e21⟩ := blockIdx ⟨(i 0).val / 2000, ht⟩
  refine ⟨⟨(i 0).val / 2000, ht⟩, flush0_2 _, ?_⟩
  rw [mem_block]
  intro a
  match a with
  | ⟨0, _⟩ =>
    show win0_2.index ⟨(i 0).val / 2000, ht⟩ (0 : Fin 2) * 2000 ≤ (i 0).val ∧ (i 0).val < win0_2.index ⟨(i 0).val / 2000, ht⟩ (0 : Fin 2) * 2000 + 2000
    rw [e20]; show (i 0).val / 2000 * 2000 ≤ (i 0).val ∧ (i 0).val < (i 0).val / 2000 * 2000 + 2000; omega
  | ⟨1, _⟩ =>
    show win0_2.index ⟨(i 0).val / 2000, ht⟩ (1 : Fin 2) * 48 ≤ (i 1).val ∧ (i 1).val < win0_2.index ⟨(i 0).val / 2000, ht⟩ (1 : Fin 2) * 48 + 48
    rw [e21]; omega

/-- The output array after the region's last point. -/
theorem final (c : Dev nD) : (dat0 V c).arrAt 2 cfg0.N = whole V c :=
  (dat0 V c).arrAt_eq_of_cover 2 (whole V c) (fun t _ => flushed_eq V c t) covered

end Cert.KernelIdeal.First

end
-- ==== Proof.Second.lean ====
/-
  The second region: the rectified aggregate times the second weight matrix, row block by row block.

  The grid has fifty points; point t works on rows 2000 t to 2000 t + 1999. Its left block is those rows of the
  left array, its right block the whole right array, and what it writes back is the block of the same rows of
  the output. Since entry (p, j) of the stored block depends only on row p of the left block, the stored block is
  the block of one whole-array function: the product of the entrywise maximum of the whole aggregate with zero and the second weight matrix. The fifty row blocks tile the output's 100000 rows, so after
  the last point the output array is that function everywhere.
-/
import proofs.«174527_j86844238725530_1_alg».proof.Proof.Gen.KernelIdeal.Frame
import proofs.«174527_j86844238725530_1_alg».proof.Proof.KPay
import proofs.«174527_j86844238725530_1_alg».proof.Proof.Spec
import Idealize.ShloMosaic.Lib.Pipeline.Value
import Idealize.ShloMosaic.Lib.ValueIdx

set_option maxRecDepth 16384

noncomputable section

namespace Cert.KernelIdeal.Second

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- Every access of the body starts at the origin of its buffer. -/
theorem origin : (![0, 0] : Fin 2 → Nat) = fun _ => 0 := funext fun a => by fin_cases a <;> rfl

/-- The block indices over the grid: the left and the output windows are on row block t, column block 0; the right
    window stays on its one block. -/
theorem blockIdx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left array as the region finds it, at its literal type. -/
abbrev larr (c : Dev nD) : S100000x48.Idx → EReal := V c main_v13
/-- The right array as the region finds it, at its literal type. -/
abbrev rarr (c : Dev nD) : S48x40.Idx → EReal := V c main_arg5

/-- The left operand of the product: the entrywise maximum of the left array with zero. -/
abbrev lop (c : Dev nD) : S100000x48.Idx → EReal := Cert.Spec.relu (larr V c)

/-- The output array as one function of the two arrays the region reads. -/
abbrev whole (c : Dev nD) : S100000x40.Idx → EReal :=
  Cert.Spec.prod (M := 100000) (K := 48) (N := 40) (lop V c) (rarr V c)

/-- What point t writes back is its row block of `whole`. -/
theorem flushed_eq (c : Dev nD) (t : Fin cfg1.N) :
    (dat1 V c).flushed 2 t = ((cfg1.win 2).blk t).view.read (Elt Ideal) (whole V c) := by
  show (cfg1.win 2).cut (grid1.coords t) ((dat1 V c).after 2 t) = _
  rw [after1_2]
  unfold out1_2
  rw [View.canon_unit_zero origin]
  simp only [View.ld_unit_zero (S := S2000x48) origin, View.ld_unit_zero (S := S48x40) origin]
  obtain ⟨e00, e01, e10, e11, e20, e21⟩ := blockIdx t
  funext y
  obtain ⟨p, q, rfl⟩ : ∃ (p : Fin 2000) (q : Fin 40), y = ix2 p q := ⟨y 0, y 1, eq_ix2 y⟩
  refine (Cert.KernelIdeal.Pay.second_ix2 (iblk1 V c 0 t) (iblk1 V c 1 t) p q).trans ?_
  show _ = ∑ a : Fin 48, lop V c (Cert.Spec.leftAt (M := 100000) (K := 48) (N := 40) (((cfg1.win 2).blk t).view.emb (ix2 p q)) a)
      * rarr V c (Cert.Spec.rightAt (M := 100000) (K := 48) (N := 40) (((cfg1.win 2).blk t).view.emb (ix2 p q)) a)
  refine Finset.sum_congr rfl fun a _ => ?_
  have hl : ((cfg1.win 0).blk t).view.emb (ix2 p a)
      = Cert.Spec.leftAt (M := 100000) (K := 48) (N := 40) (((cfg1.win 2).blk t).view.emb (ix2 p q)) a := by
    funext d; apply Fin.ext
    match d with
    | ⟨0, _⟩ => show win1_0.index t (0 : Fin 2) * 2000 + 1 * p.val = win1_2.index t (0 : Fin 2) * 2000 + 1 * p.val; omega
    | ⟨1, _⟩ => show win1_0.index t (1 : Fin 2) * 48 + 1 * a.val = a.val; omega
  have hr : ((cfg1.win 1).blk t).view.emb (ix2 a q)
      = Cert.Spec.rightAt (M := 100000) (K := 48) (N := 40) (((cfg1.win 2).blk t).view.emb (ix2 p q)) a := by
    funext d; apply Fin.ext
    match d with
    | ⟨0, _⟩ => show win1_1.index t (0 : Fin 2) * 48 + 1 * a.val = a.val; omega
    | ⟨1, _⟩ => show win1_1.index t (1 : Fin 2) * 40 + 1 * q.val = win1_2.index t (1 : Fin 2) * 40 + 1 * q.val; omega
  show lop V c (((cfg1.win 0).blk t).view.emb (ix2 p a)) * rarr V c (((cfg1.win 1).blk t).view.emb (ix2 a q)) = _
  rw [hl, hr]

/-- An index of the output array lies in point t's block when each coordinate lies in the block's range. -/
theorem mem_block (t : Fin cfg1.N) (i : S100000x40.Idx) :
    i ∈ ((cfg1.win 2).blk t).view.set ↔ ∀ a : Fin 2, win1_2.index t a * S2000x40.size a ≤ (i a).val ∧ (i a).val < win1_2.index t a * S2000x40.size a + S2000x40.size a := by
  show i ∈ ((View.whole main_v14).slice (win1_2.rect t)).set ↔ _
  rw [View.set_slice_whole, Rect.mem_set_unit]
  exact Iff.rfl

/-- Row r of the output lies in the block of point r / 2000. -/
theorem covered (i : S100000x40.Idx) :
    ∃ t : Fin cfg1.N, (cfg1.win 2).flush t = true ∧ i ∈ ((cfg1.win 2).blk t).view.set := by
  have hi0 : (i 0).val < 100000 := (i 0).isLt
  have hi1 : (i 1).val < 40 := (i 1).isLt
  have hN : cfg1.N = 50 := N_1
  have ht : (i 0).val / 2000 < cfg1.N := by rw [hN]; omega
  obtain ⟨-, -, -, -, e20, e21⟩ := blockIdx ⟨(i 0).val / 2000, ht⟩
  refine ⟨⟨(i 0).val / 2000, ht⟩, flush1_2 _, ?_⟩
  rw [mem_block]
  intro a
  match a with
  | ⟨0, _⟩ =>
    show win1_2.index ⟨(i 0).val / 2000, ht⟩ (0 : Fin 2) * 2000 ≤ (i 0).val ∧ (i 0).val < win1_2.index ⟨(i 0).val / 2000, ht⟩ (0 : Fin 2) * 2000 + 2000
    rw [e20]; show (i 0).val / 2000 * 2000 ≤ (i 0).val ∧ (i 0).val < (i 0).val / 2000 * 2000 + 2000; omega
  | ⟨1, _⟩ =>
    show win1_2.index ⟨(i 0).val / 2000, ht⟩ (1 : Fin 2) * 40 ≤ (i 1).val ∧ (i 1).val < win1_2.index ⟨(i 0).val / 2000, ht⟩ (1 : Fin 2) * 40 + 40
    rw [e21]; omega

/-- The output array after the region's last point. -/
theorem final (c : Dev nD) : (dat1 V c).arrAt 2 cfg1.N = whole V c :=
  (dat1 V c).arrAt_eq_of_cover 2 (whole V c) (fun t _ => flushed_eq V c t) covered

end Cert.KernelIdeal.Second

end
-- ==== Proof.Chain.lean ====
/-
  The sparse stage both programs share, as one function per width, and the whole layer.

  `aggregate` takes the dense product xw, the edge sources and destinations and the edge values: it gathers row
  src(e) of xw for every edge e (a negative source wrapped by the row count first), scales it by the edge's value and
  adds it into row dst(e) of a zero array. Nothing below ever looks inside it: the kernel and the reference apply the
  same stage to what they computed before it, so it is carried as an opaque function.

  `layer` is the two-layer network: aggregate (rectified (aggregate (features * weights1)) * weights2).
-/
import proofs.«174527_j86844238725530_1_alg».proof.Proof.Gen.KernelIdeal
import proofs.«174527_j86844238725530_1_alg».proof.Proof.Spec

noncomputable section

namespace Cert.KernelIdeal.Chain

open Cert.KernelIdeal Idealize.ShloMosaic Idealize.ShloMosaic.TcCoe Idealize.SL.Sem Idealize.ShloMosaic.StableHlo
open Cert.KernelIdeal.Facts₀ Cert.KernelIdeal.Facts

variable {F : FTy → Type} [FloatOps F]

/-- Gather, scale and scatter-add over the edge list, on rows of width 48. -/
def aggregate48 (xw : (⟨S100000x48, .f32⟩ : BufTy).Contents (Elt F)) (src dst : (⟨S1600000, .i32⟩ : BufTy).Contents (Elt F))
    (vals : (⟨S1600000, .f32⟩ : BufTy).Contents (Elt F)) : (⟨S100000x48, .f32⟩ : BufTy).Contents (Elt F) :=
  Host.scatterAdd scatter_S100000x48_S1600000x1_S1600000x48_1_0_0_1 (broadcastInDim S100000x48 ![] bcast_S_S100000x48 (constant S_ .f32 0x00000000#32)) (broadcastInDim S1600000x1 ![0] bcast_S1600000_S1600000x1_0 dst) (mulf (Host.gather gather_S100000x48_S1600000x1_S1600000x48_1_0_n_n_0_1_148 xw (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src))) (broadcastInDim S1600000x48 ![0, 1] bcast_S1600000x1_S1600000x48_0_1 (broadcastInDim S1600000x1 ![0] bcast_S1600000_S1600000x1_0 vals)))

/-- Gather, scale and scatter-add over the edge list, on rows of width 40. -/
def aggregate40 (xw : (⟨S100000x40, .f32⟩ : BufTy).Contents (Elt F)) (src dst : (⟨S1600000, .i32⟩ : BufTy).Contents (Elt F))
    (vals : (⟨S1600000, .f32⟩ : BufTy).Contents (Elt F)) : (⟨S100000x40, .f32⟩ : BufTy).Contents (Elt F) :=
  Host.scatterAdd scatter_S100000x40_S1600000x1_S1600000x40_1_0_0_1 (broadcastInDim S100000x40 ![] bcast_S_S100000x40 (constant S_ .f32 0x00000000#32)) (broadcastInDim S1600000x1 ![0] bcast_S1600000_S1600000x1_0 dst) (mulf (Host.gather gather_S100000x40_S1600000x1_S1600000x40_1_0_n_n_0_1_140 xw (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src))) (broadcastInDim S1600000x40 ![0, 1] bcast_S1600000x1_S1600000x40_0_1 (broadcastInDim S1600000x1 ![0] bcast_S1600000_S1600000x1_0 vals)))

/-- The two-layer network on the extended reals, as one function of the six inputs. -/
def layer (x : (⟨S100000x128, .f32⟩ : BufTy).Contents (Elt Ideal)) (src dst : (⟨S1600000, .i32⟩ : BufTy).Contents (Elt Ideal))
    (vals : (⟨S1600000, .f32⟩ : BufTy).Contents (Elt Ideal)) (w1 : (⟨S128x48, .f32⟩ : BufTy).Contents (Elt Ideal))
    (w2 : (⟨S48x40, .f32⟩ : BufTy).Contents (Elt Ideal)) : (⟨S100000x40, .f32⟩ : BufTy).Contents (Elt Ideal) :=
  aggregate40 (F := Ideal)
    (Cert.Spec.prod (M := 100000) (K := 48) (N := 40)
      (Cert.Spec.relu (aggregate48 (F := Ideal) (Cert.Spec.prod (M := 100000) (K := 128) (N := 48) x w1) src dst vals)) w2)
    src dst vals

end Cert.KernelIdeal.Chain

end
-- ==== Proof.KValue.lean ====
/-
  The kernel program's result as one function of its six inputs.

  The run passes four boundaries. After the first region the product buffer holds features * weights1 (every row
  block written back once, the blocks tiling the array). The host stretch that follows turns it into the first
  aggregate. The second region reads that aggregate, rectifies it block by block and multiplies by weights2, so
  after it the second product buffer holds rectified(aggregate) * weights2. The last host stretch aggregates once
  more. No stretch and no region writes an input, so each input is read at its launch contents throughout.
-/
import proofs.«174527_j86844238725530_1_alg».proof.Proof.Gen.KernelIdeal.Frame
import proofs.«174527_j86844238725530_1_alg».proof.Proof.First
import proofs.«174527_j86844238725530_1_alg».proof.Proof.Second
import proofs.«174527_j86844238725530_1_alg».proof.Proof.Chain
import Idealize.ShloMosaic.Lib.StableHlo.Run

set_option maxRecDepth 16384

noncomputable section

namespace Cert.KernelIdeal.Result

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-! ## The inputs at each boundary -/

/-- `main_arg1` is no window of the first region: at its exit it holds what was launched. -/
theorem first_exit_main_arg1 (c : Dev nD) : W1 m ρ c (Proc.devRef .tc main_arg1) = m ((c : Thread nD τ).loc main_arg1) :=
  (W1_of_ne m ρ c main_arg1 (by decide)).trans rfl
/-- The host stretch between the regions does not write `main_arg1`. -/
theorem second_entry_main_arg1 (c : Dev nD) : W2 m ρ c (Proc.devRef .tc main_arg1) = m ((c : Thread nD τ).loc main_arg1) :=
  (StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (first_exit_main_arg1 m ρ c)

/-- `main_arg2` is no window of the first region: at its exit it holds what was launched. -/
theorem first_exit_main_arg2 (c : Dev nD) : W1 m ρ c (Proc.devRef .tc main_arg2) = m ((c : Thread nD τ).loc main_arg2) :=
  (W1_of_ne m ρ c main_arg2 (by decide)).trans rfl
/-- The host stretch between the regions does not write `main_arg2`. -/
theorem second_entry_main_arg2 (c : Dev nD) : W2 m ρ c (Proc.devRef .tc main_arg2) = m ((c : Thread nD τ).loc main_arg2) :=
  (StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (first_exit_main_arg2 m ρ c)

/-- `main_arg3` is no window of the first region: at its exit it holds what was launched. -/
theorem first_exit_main_arg3 (c : Dev nD) : W1 m ρ c (Proc.devRef .tc main_arg3) = m ((c : Thread nD τ).loc main_arg3) :=
  (W1_of_ne m ρ c main_arg3 (by decide)).trans rfl
/-- The host stretch between the regions does not write `main_arg3`. -/
theorem second_entry_main_arg3 (c : Dev nD) : W2 m ρ c (Proc.devRef .tc main_arg3) = m ((c : Thread nD τ).loc main_arg3) :=
  (StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (first_exit_main_arg3 m ρ c)

/-- `main_arg5` is no window of the first region: at its exit it holds what was launched. -/
theorem first_exit_main_arg5 (c : Dev nD) : W1 m ρ c (Proc.devRef .tc main_arg5) = m ((c : Thread nD τ).loc main_arg5) :=
  (W1_of_ne m ρ c main_arg5 (by decide)).trans rfl
/-- The host stretch between the regions does not write `main_arg5`. -/
theorem second_entry_main_arg5 (c : Dev nD) : W2 m ρ c (Proc.devRef .tc main_arg5) = m ((c : Thread nD τ).loc main_arg5) :=
  (StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (first_exit_main_arg5 m ρ c)

/-- `main_arg1` is no window of the second region: at its exit it still holds what was launched. -/
theorem second_exit_main_arg1 (c : Dev nD) : W3 m ρ c (Proc.devRef .tc main_arg1) = m ((c : Thread nD τ).loc main_arg1) :=
  (W3_of_ne m ρ c main_arg1 (by decide)).trans (second_entry_main_arg1 m ρ c)

/-- `main_arg2` is no window of the second region: at its exit it still holds what was launched. -/
theorem second_exit_main_arg2 (c : Dev nD) : W3 m ρ c (Proc.devRef .tc main_arg2) = m ((c : Thread nD τ).loc main_arg2) :=
  (W3_of_ne m ρ c main_arg2 (by decide)).trans (second_entry_main_arg2 m ρ c)

/-- `main_arg3` is no window of the second region: at its exit it still holds what was launched. -/
theorem second_exit_main_arg3 (c : Dev nD) : W3 m ρ c (Proc.devRef .tc main_arg3) = m ((c : Thread nD τ).loc main_arg3) :=
  (W3_of_ne m ρ c main_arg3 (by decide)).trans (second_entry_main_arg3 m ρ c)

/-! ## The two product buffers -/

/-- After the first region the product buffer holds the features times the first weights. -/
theorem first_product (c : Dev nD) : W1 m ρ c (Proc.devRef .tc main_v0)
    = Cert.Spec.prod (M := 100000) (K := 128) (N := 48) (m ((c : Thread nD τ).loc main_arg0)) (m ((c : Thread nD τ).loc main_arg4)) :=
  (W1_arr m ρ c 2).trans (Cert.KernelIdeal.First.final (V0 m ρ) c)

/-- After the second region the second product buffer holds the rectified aggregate times the second weights. -/
theorem second_product (c : Dev nD) : W3 m ρ c (Proc.devRef .tc main_v14)
    = Cert.Spec.prod (M := 100000) (K := 48) (N := 40) (Cert.Spec.relu (W2 m ρ c (Proc.devRef .tc main_v13))) (W2 m ρ c (Proc.devRef .tc main_arg5)) :=
  (W3_arr m ρ c 2).trans (Cert.KernelIdeal.Second.final (V2 m ρ) c)

/-! ## The two host stretches -/

/-- The stretch between the regions leaves the aggregate of the first product in the second region's left array. -/
theorem first_aggregate (c : Dev nD) : W2 m ρ c (Proc.devRef .tc main_v13)
    = Cert.KernelIdeal.Chain.aggregate48 (F := Ideal) (W1 m ρ c (Proc.devRef .tc main_v0)) (W1 m ρ c (Proc.devRef .tc main_arg1))
        (W1 m ρ c (Proc.devRef .tc main_arg2)) (W1 m ρ c (Proc.devRef .tc main_arg3)) := by
  show StableHlo.after hostOps1 (W1 m ρ c) (Proc.devRef .tc main_v13) = _
  dsimp only [hostOps1]
  after_results
  rfl

/-- The last stretch leaves the aggregate of the second product in the result buffer. -/
theorem second_aggregate (c : Dev nD) : W4 m ρ c (Proc.devRef .tc main_v27)
    = Cert.KernelIdeal.Chain.aggregate40 (F := Ideal) (W3 m ρ c (Proc.devRef .tc main_v14)) (W3 m ρ c (Proc.devRef .tc main_arg1))
        (W3 m ρ c (Proc.devRef .tc main_arg2)) (W3 m ρ c (Proc.devRef .tc main_arg3)) := by
  show StableHlo.after hostOps2 (W3 m ρ c) (Proc.devRef .tc main_v27) = _
  dsimp only [hostOps2]
  after_results
  rfl

/-! ## The result -/

/-- The result buffer at the last boundary is the two-layer network of the launch contents of the six inputs. -/
theorem result (c : Dev nD) : W4 m ρ c (Proc.devRef .tc main_v27)
    = Cert.KernelIdeal.Chain.layer (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  rw [second_aggregate, second_product, first_aggregate, first_product, second_entry_main_arg5,
    second_exit_main_arg1, second_exit_main_arg2, second_exit_main_arg3,
    first_exit_main_arg1, first_exit_main_arg2, first_exit_main_arg3]
  rfl

end Cert.KernelIdeal.Result

end
-- ==== Proof.RefValue.lean ====
/-
  The reference's result as the same function of the six inputs.

  The reference's two dense products are whole-array products (the host's product contracts the left operand's
  columns with the right operand's rows: the same sum, entry by entry), its rectification is the entrywise maximum
  with the zero splat, and its two sparse stages are the stage the kernel program runs, operation for operation.
-/
import proofs.«174527_j86844238725530_1_alg».proof.Proof.Gen.ReferenceIdeal.Run
import proofs.«174527_j86844238725530_1_alg».proof.Proof.Gen.ReferenceIdeal.Read
import proofs.«174527_j86844238725530_1_alg».proof.Proof.Chain
import proofs.«174527_j86844238725530_1_alg».proof.Proof.Spec

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

/-- The first dense layer's product is the whole-array product of the features with the first weights. -/
theorem first_dot (x : FVec Ideal S100000x128 .f32) (w : FVec Ideal S128x48 .f32) :
    Host.dotGeneral (F := Ideal) dot_S100000x128_S128x48_S100000x48_1_0_0_1_n_n none x w = Cert.Spec.prod (M := 100000) (K := 128) (N := 48) x w :=
  Cert.Spec.hostDot_eq_prod dot_S100000x128_S128x48_S100000x48_1_0_0_1_n_n none rfl rfl Read.lhs_main_v0_0 Read.lhs_main_v0_1 Read.rhs_main_v0_0 Read.rhs_main_v0_1 x w

/-- The second dense layer's product likewise. -/
theorem second_dot (x : FVec Ideal S100000x48 .f32) (w : FVec Ideal S48x40 .f32) :
    Host.dotGeneral (F := Ideal) dot_S100000x48_S48x40_S100000x40_1_0_0_1_n_n none x w = Cert.Spec.prod (M := 100000) (K := 48) (N := 40) x w :=
  Cert.Spec.hostDot_eq_prod dot_S100000x48_S48x40_S100000x40_1_0_0_1_n_n none rfl rfl Read.lhs_main_v15_0 Read.lhs_main_v15_1 Read.rhs_main_v15_0 Read.rhs_main_v15_1 x w

/-- The maximum with the zero splat is the entrywise maximum with the zero word's value. -/
theorem rectify (a : FVec Ideal S100000x48 .f32) :
    maximumf (F := Ideal) a (broadcastInDim S100000x48 ![] bcast_S_S100000x48 (constant (F := Ideal) S_ .f32 0x00000000#32)) = Cert.Spec.relu a := by
  funext i
  show max (a i) (Read.val_main_call0_v0 (F := Ideal) i) = max (a i) (Ideal.ofBits .f32 0x00000000#32)
  rw [Read.val_main_call0_v0_apply, Read.val_main_call0_cst_apply]
  rfl

/-- The reference's composed term is the two-layer network. -/
theorem result (x : FVec Ideal S100000x128 .f32) (src dst : (⟨S1600000, .i32⟩ : BufTy).Contents (Elt Ideal))
    (vals : FVec Ideal S1600000 .f32) (w1 : FVec Ideal S128x48 .f32)
    (w2 : FVec Ideal S48x40 .f32) :
    Host.scatterAdd (F := Ideal) scatter_S100000x40_S1600000x1_S1600000x40_1_0_0_1 (broadcastInDim S100000x40 ![] bcast_S_S100000x40 (constant (F := Ideal) S_ .f32 0x00000000#32)) (broadcastInDim S1600000x1 ![0] bcast_S1600000_S1600000x1_0 dst) (mulf (F := Ideal) (Host.gather gather_S100000x40_S1600000x1_S1600000x40_1_0_n_n_0_1_140 (Host.dotGeneral (F := Ideal) dot_S100000x48_S48x40_S100000x40_1_0_0_1_n_n none (maximumf (F := Ideal) (Host.scatterAdd (F := Ideal) scatter_S100000x48_S1600000x1_S1600000x48_1_0_0_1 (broadcastInDim S100000x48 ![] bcast_S_S100000x48 (constant (F := Ideal) S_ .f32 0x00000000#32)) (broadcastInDim S1600000x1 ![0] bcast_S1600000_S1600000x1_0 dst) (mulf (F := Ideal) (Host.gather gather_S100000x48_S1600000x1_S1600000x48_1_0_n_n_0_1_148 (Host.dotGeneral (F := Ideal) dot_S100000x128_S128x48_S100000x48_1_0_0_1_n_n none x w1) (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src))) (broadcastInDim S1600000x48 ![0, 1] bcast_S1600000x1_S1600000x48_0_1 (broadcastInDim S1600000x1 ![0] bcast_S1600000_S1600000x1_0 vals)))) (broadcastInDim S100000x48 ![] bcast_S_S100000x48 (constant (F := Ideal) S_ .f32 0x00000000#32))) w2) (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src))) (broadcastInDim S1600000x40 ![0, 1] bcast_S1600000x1_S1600000x40_0_1 (broadcastInDim S1600000x1 ![0] bcast_S1600000_S1600000x1_0 vals)))
      = Cert.KernelIdeal.Chain.layer x src dst vals w1 w2 := by
  rw [first_dot, rectify, second_dot]
  rfl

end Cert.ReferenceIdeal.RefValue

end
-- ==== Proof.lean ====
/-
  A two-layer graph convolution, out = A (relu (A (X W1)) W2), where A is given as an edge list (sources,
  destinations, values) and applied by gather, scale and scatter-add.

  The kernel program computes the two dense products X W1 and relu(·) W2 on the TensorCore, fifty row blocks of 2000
  rows each, with the rectification inside the second body; the reference computes them as whole products on the
  host and rectifies on the host. On the extended reals a narrowing cast is the identity and a product into a zero
  accumulator is the plain sum over the contracted index, so row p of block t of the blocked product is row
  2000 t + p of the whole product: the same sum, term by term. No rearrangement of a sum is involved, so the finiteness
  of the inputs is never used. The sparse stage is the same list of host operations in both programs and is carried
  as one function.

  The three frames: the two kernel programs' are the generated ones; the reference's is its generated run with the
  result dropped. The idealization rewrote nothing, so there is nothing to preserve. For the equivalence both
  programs' results are shown to be `Chain.layer` of the six inputs.
-/
import proofs.«174527_j86844238725530_1_alg».proof.Defs
import proofs.«174527_j86844238725530_1_alg».proof.Proof.Gen.Kernel
import proofs.«174527_j86844238725530_1_alg».proof.Proof.Gen.Kernel.Skeleton
import proofs.«174527_j86844238725530_1_alg».proof.Proof.Gen.Kernel.Launch
import proofs.«174527_j86844238725530_1_alg».proof.Proof.Gen.Kernel.Points
import proofs.«174527_j86844238725530_1_alg».proof.Proof.Gen.Kernel.Frame
import proofs.«174527_j86844238725530_1_alg».proof.Proof.Gen.KernelIdeal
import proofs.«174527_j86844238725530_1_alg».proof.Proof.Gen.KernelIdeal.Skeleton
import proofs.«174527_j86844238725530_1_alg».proof.Proof.Gen.KernelIdeal.Launch
import proofs.«174527_j86844238725530_1_alg».proof.Proof.Gen.KernelIdeal.Points
import proofs.«174527_j86844238725530_1_alg».proof.Proof.Gen.KernelIdeal.Frame
import proofs.«174527_j86844238725530_1_alg».proof.Proof.Gen.ReferenceIdeal
import proofs.«174527_j86844238725530_1_alg».proof.Proof.Gen.ReferenceIdeal.Run
import proofs.«174527_j86844238725530_1_alg».proof.Proof.Gen.Pre_finite_inputs
import proofs.«174527_j86844238725530_1_alg».proof.Proof.Named
import proofs.«174527_j86844238725530_1_alg».proof.Proof.KValue
import proofs.«174527_j86844238725530_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the two-layer network of the inputs in their result buffer. -/
theorem algebraic : Cert.algebraic_KernelIdeal_ReferenceIdeal := by
  intro m ρ m' ρ' _ hagree
  refine ⟨fun c => Cert.KernelIdeal.Chain.layer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Result.result m ρ c), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5⟩ := hagree c
    rw [h0, h1, h2, h3, h4, h5]
    exact Cert.ReferenceIdeal.RefValue.result _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
